-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_v18) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x32x32 : Shape := ⟨4, ![64, 256, 32, 32]⟩
abbrev S_ : Shape := ⟨0, ![]⟩

class Facts : Prop where
  bcast_S_S64x256x32x32 : S_.BroadcastsInDim S64x256x32x32 (![] : Fin 0 → Fin S64x256x32x32.rank)
  reducesTo_S64x256x32x32_S_d0_1_2_3 : S64x256x32x32.ReducesTo [0, 1, 2, 3] S_
  h_S_ : 0 < S_.numel

variable [Facts]

def fn_part1 {F : FTy → Type} [FloatOps F] (main_v13 : IVec S_ 1) (main_v16 : IVec S64x256x32x32 1) : IVec S_ 1 :=
  let main_c_5 : IVec S_ 1 := constantI S_ 1 1#1
  let main_v17 : IVec S_ 1 := (fun x v => Host.reduce IntOp.andi x v reducesTo_S64x256x32x32_S_d0_1_2_3 h_S_) main_v16 main_c_5
  let main_v18 : IVec S_ 1 := andi main_v13 main_v17
  main_v18

def fn {F : FTy → Type} [FloatOps F] (main_arg0 : FVec F S64x256x32x32 .f32) (main_arg1 : FVec F S64x256x32x32 .f32) (main_arg2 : FVec F S64x256x32x32 .f32) (main_arg3 : FVec F S64x256x32x32 .f32) : IVec S_ 1 :=
  let main_v0 : FVec F S64x256x32x32 .f32 := Host.absf main_arg0
  let main_cst : FVec F S_ .f32 := constant S_ .f32 0x7F800000#32
  let main_v1 : FVec F S64x256x32x32 .f32 := broadcastInDim S64x256x32x32 ![] bcast_S_S64x256x32x32 main_cst
  let main_v2 : IVec S64x256x32x32 1 := cmpf .olt main_v0 main_v1
  let main_c : IVec S_ 1 := constantI S_ 1 1#1
  let main_v3 : IVec S_ 1 := (fun x v => Host.reduce IntOp.andi x v reducesTo_S64x256x32x32_S_d0_1_2_3 h_S_) main_v2 main_c
  let main_v4 : FVec F S64x256x32x32 .f32 := Host.absf main_arg1
  let main_cst_0 : FVec F S_ .f32 := constant S_ .f32 0x7F800000#32
  let main_v5 : FVec F S64x256x32x32 .f32 := broadcastInDim S64x256x32x32 ![] bcast_S_S64x256x32x32 main_cst_0
  let main_v6 : IVec S64x256x32x32 1 := cmpf .olt main_v4 main_v5
  let main_c_1 : IVec S_ 1 := constantI S_ 1 1#1
  let main_v7 : IVec S_ 1 := (fun x v => Host.reduce IntOp.andi x v reducesTo_S64x256x32x32_S_d0_1_2_3 h_S_) main_v6 main_c_1
  let main_v8 : IVec S_ 1 := andi main_v3 main_v7
  let main_v9 : FVec F S64x256x32x32 .f32 := Host.absf main_arg2
  let main_cst_2 : FVec F S_ .f32 := constant S_ .f32 0x7F800000#32
  let main_v10 : FVec F S64x256x32x32 .f32 := broadcastInDim S64x256x32x32 ![] bcast_S_S64x256x32x32 main_cst_2
  let main_v11 : IVec S64x256x32x32 1 := cmpf .olt main_v9 main_v10
  let main_c_3 : IVec S_ 1 := constantI S_ 1 1#1
  let main_v12 : IVec S_ 1 := (fun x v => Host.reduce IntOp.andi x v reducesTo_S64x256x32x32_S_d0_1_2_3 h_S_) main_v11 main_c_3
  let main_v13 : IVec S_ 1 := andi main_v8 main_v12
  let main_v14 : FVec F S64x256x32x32 .f32 := Host.absf main_arg3
  let main_cst_4 : FVec F S_ .f32 := constant S_ .f32 0x7F800000#32
  let main_v15 : FVec F S64x256x32x32 .f32 := broadcastInDim S64x256x32x32 ![] bcast_S_S64x256x32x32 main_cst_4
  let main_v16 : IVec S64x256x32x32 1 := cmpf .olt main_v14 main_v15
  fn_part1 (F := F) main_v13 main_v16
-- ==== Kernel.lean ====
abbrev S64x256x32x32 : Shape := ⟨4, ![64, 256, 32, 32]⟩
abbrev S1x256x32x32 : Shape := ⟨4, ![1, 256, 32, 32]⟩

abbrev nBuf : Space → Nat
  | .hbm => 8
  | .vmem => 14
  | .smem => 0
  | _ => 0

abbrev bufTy : (tb : Table) → Fin (tcTables nBuf tb) → BufTy
  | .hbm, ⟨0, _⟩ => ⟨S64x256x32x32, .f32⟩
  | .hbm, ⟨1, _⟩ => ⟨S64x256x32x32, .f32⟩
  | .hbm, ⟨2, _⟩ => ⟨S64x256x32x32, .f32⟩
  | .hbm, ⟨3, _⟩ => ⟨S64x256x32x32, .f32⟩
  | .hbm, ⟨4, _⟩ => ⟨S64x256x32x32, .f32⟩
  | .hbm, ⟨5, _⟩ => ⟨S64x256x32x32, .f32⟩
  | .hbm, ⟨6, _⟩ => ⟨S64x256x32x32, .f32⟩
  | .hbm, ⟨7, _⟩ => ⟨S64x256x32x32, .f32⟩
  | .local _ .vmem, ⟨0, _⟩ => ⟨S1x256x32x32, .f32⟩
  | .local _ .vmem, ⟨1, _⟩ => ⟨S1x256x32x32, .f32⟩
  | .local _ .vmem, ⟨2, _⟩ => ⟨S1x256x32x32, .f32⟩
  | .local _ .vmem, ⟨3, _⟩ => ⟨S1x256x32x32, .f32⟩
  | .local _ .vmem, ⟨4, _⟩ => ⟨S1x256x32x32, .f32⟩
  | .local _ .vmem, ⟨5, _⟩ => ⟨S1x256x32x32, .f32⟩
  | .local _ .vmem, ⟨6, _⟩ => ⟨S1x256x32x32, .f32⟩
  | .local _ .vmem, ⟨7, _⟩ => ⟨S1x256x32x32, .f32⟩
  | .local _ .vmem, ⟨8, _⟩ => ⟨S1x256x32x32, .f32⟩
  | .local _ .vmem, ⟨9, _⟩ => ⟨S1x256x32x32, .f32⟩
  | .local _ .vmem, ⟨10, _⟩ => ⟨S1x256x32x32, .f32⟩
  | .local _ .vmem, ⟨11, _⟩ => ⟨S1x256x32x32, .f32⟩
  | .local _ .vmem, ⟨12, _⟩ => ⟨S1x256x32x32, .f32⟩
  | .local _ .vmem, ⟨13, _⟩ => ⟨S1x256x32x32, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x32x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x32x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x32x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x32x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S1x256x32x32_S1x256x32x32_0_0_0_0 : ∀ a, (![0, 0, 0, 0] : Fin 4 → Nat) a + S1x256x32x32.size a ≤ S1x256x32x32.size a
  h_S1x256x32x32 : 0 < S1x256x32x32.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x32x32.size a ≤ S64x256x32x32.size a
  hwx0_0 : ∀ i : grid0.Coords, EltTy.bits .f32 = 32 ∨ (Rect.block (s := S64x256x32x32) S1x256x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x32x32.size a ≤ S64x256x32x32.size a
  hwx0_1 : ∀ i : grid0.Coords, EltTy.bits .f32 = 32 ∨ (Rect.block (s := S64x256x32x32) S1x256x32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x32x32.size a ≤ S64x256x32x32.size a
  hwx0_2 : ∀ i : grid0.Coords, EltTy.bits .f32 = 32 ∨ (Rect.block (s := S64x256x32x32) S1x256x32x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x32x32.size a ≤ S64x256x32x32.size a
  hwx0_3 : ∀ i : grid0.Coords, EltTy.bits .f32 = 32 ∨ (Rect.block (s := S64x256x32x32) S1x256x32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x32x32.size a ≤ S64x256x32x32.size a
  hwx0_4 : ∀ i : grid0.Coords, EltTy.bits .f32 = 32 ∨ (Rect.block (s := S64x256x32x32) S1x256x32x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x32x32.size a ≤ S64x256x32x32.size a
  hwx0_5 : ∀ i : grid0.Coords, EltTy.bits .f32 = 32 ∨ (Rect.block (s := S64x256x32x32) S1x256x32x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x32x32.size a ≤ S64x256x32x32.size a
  hwx0_6 : ∀ i : grid0.Coords, EltTy.bits .f32 = 32 ∨ (Rect.block (s := S64x256x32x32) S1x256x32x32.size (cc0_transform_6 i) (hinb0_6 i)).WholeWords (EltTy.packing .f32)

variable [Facts₀]

abbrev win0_0 : Pipeline.Window sig grid0 :=
  Pipeline.Window.ofSpec (Memref.whole main_arg0) S1x256x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x32x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x256x32x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x256x32x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x256x32x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1x256x32x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x256x32x32 : Shape := ⟨4, ![64, 256, 32, 32]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S64x256x32x32, .f32⟩
  | .hbm, ⟨1, _⟩ => ⟨S64x256x32x32, .f32⟩
  | .hbm, ⟨2, _⟩ => ⟨S64x256x32x32, .f32⟩
  | .hbm, ⟨3, _⟩ => ⟨S64x256x32x32, .f32⟩
  | .hbm, ⟨4, _⟩ => ⟨S_, .f32⟩
  | .hbm, ⟨5, _⟩ => ⟨S64x256x32x32, .f32⟩
  | .hbm, ⟨6, _⟩ => ⟨S64x256x32x32, .i1⟩
  | .hbm, ⟨7, _⟩ => ⟨S_, .f32⟩
  | .hbm, ⟨8, _⟩ => ⟨S_, .f32⟩
  | .hbm, ⟨9, _⟩ => ⟨S64x256x32x32, .f32⟩
  | .hbm, ⟨10, _⟩ => ⟨S64x256x32x32, .f32⟩
  | .hbm, ⟨11, _⟩ => ⟨S64x256x32x32, .f32⟩
  | .hbm, ⟨12, _⟩ => ⟨S_, .f32⟩
  | .hbm, ⟨13, _⟩ => ⟨S64x256x32x32, .f32⟩
  | .hbm, ⟨14, _⟩ => ⟨S64x256x32x32, .i1⟩
  | .hbm, ⟨15, _⟩ => ⟨S_, .f32⟩
  | .hbm, ⟨16, _⟩ => ⟨S64x256x32x32, .f32⟩
  | .hbm, ⟨17, _⟩ => ⟨S64x256x32x32, .f32⟩
  | .hbm, ⟨18, _⟩ => ⟨S64x256x32x32, .f32⟩
  | .hbm, ⟨19, _⟩ => ⟨S_, .f32⟩
  | .hbm, ⟨20, _⟩ => ⟨S64x256x32x32, .f32⟩
  | .hbm, ⟨21, _⟩ => ⟨S64x256x32x32, .i1⟩
  | .hbm, ⟨22, _⟩ => ⟨S_, .f32⟩
  | .hbm, ⟨23, _⟩ => ⟨S_, .f32⟩
  | .hbm, ⟨24, _⟩ => ⟨S64x256x32x32, .f32⟩
  | .hbm, ⟨25, _⟩ => ⟨S64x256x32x32, .f32⟩
  | .hbm, ⟨26, _⟩ => ⟨S64x256x32x32, .f32⟩
  | .hbm, ⟨27, _⟩ => ⟨S64x256x32x32, .f32⟩
  | .hbm, ⟨28, _⟩ => ⟨S_, .f32⟩
  | .hbm, ⟨29, _⟩ => ⟨S64x256x32x32, .f32⟩
  | .hbm, ⟨30, _⟩ => ⟨S64x256x32x32, .i1⟩
  | .hbm, ⟨31, _⟩ => ⟨S_, .f32⟩
  | .hbm, ⟨32, _⟩ => ⟨S_, .f32⟩
  | .hbm, ⟨33, _⟩ => ⟨S64x256x32x32, .f32⟩
  | .hbm, ⟨34, _⟩ => ⟨S64x256x32x32, .f32⟩
  | .hbm, ⟨35, _⟩ => ⟨S_, .f32⟩
  | .hbm, ⟨36, _⟩ => ⟨S_, .f32⟩
  | .hbm, ⟨37, _⟩ => ⟨S64x256x32x32, .f32⟩
  | .hbm, ⟨38, _⟩ => ⟨S64x256x32x32, .f32⟩
  | .hbm, ⟨39, _⟩ => ⟨S_, .f32⟩
  | .hbm, ⟨40, _⟩ => ⟨S_, .f32⟩
  | .hbm, ⟨41, _⟩ => ⟨S64x256x32x32, .f32⟩
  | .hbm, ⟨42, _⟩ => ⟨S64x256x32x32, .f32⟩
  | .hbm, ⟨43, _⟩ => ⟨S64x256x32x32, .f32⟩
  | .hbm, ⟨44, _⟩ => ⟨S64x256x32x32, .f32⟩
  | _, _ => ⟨S64x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_cst_5 : Ref sig .tc := ⟨.hbm, 23, rfl⟩
abbrev main_call2_v0 : Ref sig .tc := ⟨.hbm, 24, rfl⟩
abbrev main_call2_v1 : Ref sig .tc := ⟨.hbm, 25, rfl⟩
abbrev main_v11 : Ref sig .tc := ⟨.hbm, 26, rfl⟩
abbrev main_v12 : Ref sig .tc := ⟨.hbm, 27, rfl⟩
abbrev main_cst_6 : Ref sig .tc := ⟨.hbm, 28, rfl⟩
abbrev main_v13 : Ref sig .tc := ⟨.hbm, 29, rfl⟩
abbrev main_v14 : Ref sig .tc := ⟨.hbm, 30, rfl⟩
abbrev main_cst_7 : Ref sig .tc := ⟨.hbm, 31, rfl⟩
abbrev main_call3_v0 : Ref sig .tc := ⟨.hbm, 32, rfl⟩
abbrev main_call3_v1 : Ref sig .tc := ⟨.hbm, 33, rfl⟩
abbrev main_v15 : Ref sig .tc := ⟨.hbm, 34, rfl⟩
abbrev main_cst_8 : Ref sig .tc := ⟨.hbm, 35, rfl⟩
abbrev main_call4_v0 : Ref sig .tc := ⟨.hbm, 36, rfl⟩
abbrev main_call4_v1 : Ref sig .tc := ⟨.hbm, 37, rfl⟩
abbrev main_v16 : Ref sig .tc := ⟨.hbm, 38, rfl⟩
abbrev main_cst_9 : Ref sig .tc := ⟨.hbm, 39, rfl⟩
abbrev main_cst_10 : Ref sig .tc := ⟨.hbm, 40, rfl⟩
abbrev main_call5_v0 : Ref sig .tc := ⟨.hbm, 41, rfl⟩
abbrev main_call5_v1 : Ref sig .tc := ⟨.hbm, 42, rfl⟩
abbrev main_v17 : Ref sig .tc := ⟨.hbm, 43, rfl⟩
abbrev main_v18 : Ref sig .tc := ⟨.hbm, 44, rfl⟩

abbrev nD : Nat := 1
abbrev τ : Topo := Topo.v7x

variable {F : FTy → Type} [FloatOps F]

class Facts₀ : Prop where
  bcast_S_S64x256x32x32 : S_.BroadcastsInDim S64x256x32x32 (![] : Fin 0 → Fin S64x256x32x32.rank)

variable [Facts₀]

class Facts : Prop extends Facts₀ where

variable [Facts]
-- ==== Proof.SpikeStep.lean ====
/-
  One step of a layer of leaky integrate-and-fire neurons, element by element over f32[64, 256, 32, 32].

  Write x for the incoming impulse, v for the membrane potential and ρ for the time until which the neuron is
  refractory. The present time is 5, the refractory period 2 (so a neuron that fires is refractory until 7), the
  threshold 1, and the leak per step is the f32 nearest 0.1. At every index:

      drive      d = 0 if ρ > 5, else x              a refractory neuron ignores its input
      charged    u = v + d                           the input is integrated
      leaked     l = u - 0.1 if u > 0, else u        a positive potential leaks
      amplitude  a = 1 if l ≥ 1, else 0              the spike that is emitted
      fired      φ = (a ≠ 0)

  and the four results are   a,   0 if φ else l,   7 if φ else ρ,   5 if φ else 0.

  The kernel computes this one slab [1, 256, 32, 32] per grid point, the 64 slabs tiling the arrays; the reference
  computes it on whole arrays. Both apply the same operations to the same five literals in the same order, so at
  every index each result is ONE expression of (x i, v i, ρ i) on both sides. The texts differ in a single place,
  the test a ≠ 0: the kernel asks "ordered and not equal", the reference "unordered or not equal". On the extended
  reals every two numbers are ordered, so both are the plain a ≠ 0 (`une_eq_one`). No law of arithmetic is used:
  the values agree at every input, finite or not; the precondition is not opened.
-/
import proofs.«171299_j62466004353543_1_alg».proof.Defs
import proofs.«171299_j62466004353543_1_alg».proof.Proof.KernelValue
import proofs.«171299_j62466004353543_1_alg».proof.Proof.ReferenceRun
import proofs.«171299_j62466004353543_1_alg».proof.Proof.ReferenceRead

noncomputable section

open Idealize.ShloMosaic Idealize.ShloMosaic.TcCoe Idealize.SL.Sem

namespace Cert.SpikeStep

/-! ## The update at one neuron, on the extended reals -/

/-- The input that reaches the membrane: nothing while the refractory deadline `ρ` lies after the present time 5. -/
def drive (x ρ : Ideal .f32) : Ideal .f32 :=
  Scalar.select (FloatOps.cmpf .ogt ρ (FloatOps.ofBits .f32 0x40A00000#32)) (FloatOps.ofBits .f32 0x00000000#32) x

/-- The membrane potential after the input is integrated. -/
def charged (x v ρ : Ideal .f32) : Ideal .f32 := FloatOps.addf v (drive x ρ)

/-- … and after the leak: a positive potential loses the step's leak, the f32 nearest 0.1. -/
def leaked (x v ρ : Ideal .f32) : Ideal .f32 :=
  Scalar.select (FloatOps.cmpf .ogt (charged x v ρ) (FloatOps.ofBits .f32 0x00000000#32))
    (FloatOps.subf (charged x v ρ) (FloatOps.ofBits .f32 0x3DCCCCCD#32)) (charged x v ρ)

/-- The spike: the threshold 1 where the potential has reached it, else 0. -/
def amplitude (x v ρ : Ideal .f32) : Ideal .f32 :=
  Scalar.select (FloatOps.cmpf .oge (leaked x v ρ) (FloatOps.ofBits .f32 0x3F800000#32))
    (FloatOps.ofBits .f32 0x3F800000#32) (FloatOps.ofBits .f32 0x00000000#32)

/-- Whether the neuron fired: its spike is not zero. -/
def fired (x v ρ : Ideal .f32) : BitVec 1 :=
  FloatOps.cmpf .one (amplitude x v ρ) (FloatOps.ofBits .f32 0x00000000#32)

/-- The potential carried to the next step: reset to 0 by a spike. -/
def membraneAfter (x v ρ : Ideal .f32) : Ideal .f32 :=
  Scalar.select (fired x v ρ) (FloatOps.ofBits .f32 0x00000000#32) (leaked x v ρ)

/-- The refractory deadline carried on: a spike at time 5 moves it to 5 + 2 = 7. -/
def refractoryAfter (x v ρ : Ideal .f32) : Ideal .f32 :=
  Scalar.select (fired x v ρ) (FloatOps.ofBits .f32 0x40E00000#32) ρ

/-- The spike train's entry: the present time 5 where the neuron fired, else 0. -/
def spikeTime (x v ρ : Ideal .f32) : Ideal .f32 :=
  Scalar.select (fired x v ρ) (FloatOps.ofBits .f32 0x40A00000#32) (FloatOps.ofBits .f32 0x00000000#32)

/-- On the extended reals any two numbers are ordered, so "unordered or different" and "ordered and different"
    are one test: `a ≠ b`. -/
theorem une_eq_one (a b : Ideal .f32) :
    FloatOps.cmpf (F := Ideal) .une a b = FloatOps.cmpf (F := Ideal) .one a b := rfl

/-! ## The kernel's four arrays are these functions, index by index -/

section Kernel
open Cert.KernelIdeal

variable (x v ρ : S64x256x32x32.Idx → Elt Ideal .f32)

theorem kernel_amplitude : ValueP.G3 (F := Ideal) x v ρ = fun i => amplitude (x i) (v i) (ρ i) := rfl
theorem kernel_membrane : ValueP.G4 (F := Ideal) x v ρ = fun i => membraneAfter (x i) (v i) (ρ i) := rfl
theorem kernel_refractory : ValueP.G5 (F := Ideal) x v ρ = fun i => refractoryAfter (x i) (v i) (ρ i) := rfl
theorem kernel_spikeTime : ValueP.G6 (F := Ideal) x v ρ = fun i => spikeTime (x i) (v i) (ρ i) := rfl

end Kernel

/-! ## The reference's four arrays are the same functions -/

section Reference
open Cert.ReferenceIdeal

variable (x v ρ : S64x256x32x32.Idx → Elt Ideal .f32) (i : S64x256x32x32.Idx)

/-- The reference's potential after integration and leak (its value %8), read at an index. -/
theorem ref_leaked : ReadP.val_main_v8 (F := Ideal) x v ρ i = leaked (x i) (v i) (ρ i) := by
  simp only [ReadP.val_main_v8_apply, ReadP.val_main_v5_apply, ReadP.val_main_v7_apply, ReadP.val_main_v3_apply,
    ReadP.val_main_v2_apply, ReadP.val_main_v1_apply, ReadP.val_main_v0_apply, ReadP.val_main_cst_apply,
    ReadP.val_main_call0_v1_apply, ReadP.val_main_call0_v0_apply, ReadP.val_main_cst_0_apply,
    ReadP.val_main_v4_apply, ReadP.val_main_cst_1_apply, ReadP.val_main_v6_apply, ReadP.val_main_cst_2_apply]
  rfl

/-- The reference's spike (its value %12, the first result). -/
theorem ref_amplitude : ReadP.val_main_v12 (F := Ideal) x v ρ i = amplitude (x i) (v i) (ρ i) := by
  rw [ReadP.val_main_v12_apply, ReadP.val_main_v11_apply, ReadP.val_main_v10_apply, ref_leaked,
    ReadP.val_main_v9_apply, ReadP.val_main_cst_3_apply, ReadP.val_main_call2_v0_apply, ReadP.val_main_cst_4_apply,
    ReadP.val_main_call2_v1_apply, ReadP.val_main_cst_5_apply]
  rfl

/-- The reference's test "the spike is not zero" (its value %14) is the kernel's: the one place where the two
    texts differ, `une` against `one`. -/
theorem ref_fired : ReadP.val_main_v14 (F := Ideal) x v ρ i = fired (x i) (v i) (ρ i) := by
  rw [ReadP.val_main_v14_apply, ref_amplitude, ReadP.val_main_v13_apply, ReadP.val_main_cst_6_apply, une_eq_one]
  rfl

theorem ref_membrane : ReadP.val_main_v15 (F := Ideal) x v ρ i = membraneAfter (x i) (v i) (ρ i) := by
  rw [ReadP.val_main_v15_apply, ref_fired, ref_leaked, ReadP.val_main_call3_v1_apply,
    ReadP.val_main_call3_v0_apply, ReadP.val_main_cst_7_apply]
  rfl

theorem ref_refractory : ReadP.val_main_v16 (F := Ideal) x v ρ i = refractoryAfter (x i) (v i) (ρ i) := by
  rw [ReadP.val_main_v16_apply, ref_fired, ReadP.val_main_call4_v1_apply, ReadP.val_main_call4_v0_apply,
    ReadP.val_main_cst_8_apply]
  rfl

theorem ref_spikeTime : ReadP.val_main_v18 (F := Ideal) x v ρ i = spikeTime (x i) (v i) (ρ i) := by
  rw [ReadP.val_main_v18_apply, ReadP.val_main_v17_apply, ref_fired, ReadP.val_main_call5_v0_apply,
    ReadP.val_main_cst_9_apply, ReadP.val_main_call5_v1_apply, ReadP.val_main_cst_10_apply]
  rfl

end Reference

/-! ## So each of the reference's result arrays is the kernel's -/

section Arrays

variable (x v ρ : Cert.KernelIdeal.S64x256x32x32.Idx → Elt Ideal .f32)

theorem amplitude_eq : Cert.ReferenceIdeal.ReadP.val_main_v12 (F := Ideal) x v ρ = Cert.KernelIdeal.ValueP.G3 (F := Ideal) x v ρ := by
  rw [kernel_amplitude]; exact funext fun i => ref_amplitude x v ρ i

theorem membrane_eq : Cert.ReferenceIdeal.ReadP.val_main_v15 (F := Ideal) x v ρ = Cert.KernelIdeal.ValueP.G4 (F := Ideal) x v ρ := by
  rw [kernel_membrane]; exact funext fun i => ref_membrane x v ρ i

theorem refractory_eq : Cert.ReferenceIdeal.ReadP.val_main_v16 (F := Ideal) x v ρ = Cert.KernelIdeal.ValueP.G5 (F := Ideal) x v ρ := by
  rw [kernel_refractory]; exact funext fun i => ref_refractory x v ρ i

theorem spikeTime_eq : Cert.ReferenceIdeal.ReadP.val_main_v18 (F := Ideal) x v ρ = Cert.KernelIdeal.ValueP.G6 (F := Ideal) x v ρ := by
  rw [kernel_spikeTime]; exact funext fun i => ref_spikeTime x v ρ i

end Arrays

end Cert.SpikeStep

end
-- ==== Proof.lean ====
/-
  A layer of leaky integrate-and-fire neurons advanced by one step, f32[64, 256, 32, 32]: the Pallas kernel (one slab
  [1, 256, 32, 32] per grid point, 64 points) against the whole-array jnp reference. Four results: the spikes, the
  membrane potential (reset where a neuron fired), the refractory deadline (moved to 7 where it fired) and the
  spike train's entry (the present time 5 where it fired).

  What is proved. All three programs run, fault-free, and leave their arguments unchanged (the two kernels' frames are
  the generated frame certificates; the reference's is its run with the results dropped). The idealization rewrote no
  operation, so there is nothing to preserve. And at the ideal instance the kernel's four arrays and the reference's
  are equal: both sides are, at every index, the same expression of the impulse, the potential and the deadline at
  that index (Proof/SpikeStep.lean) — the same comparisons, selections, one sum and one difference over the same five
  literals — once one notes that "not equal" has one meaning on the extended reals, whether a text asks for it
  ordered or unordered. No arithmetic law is needed, so the values agree for every input and the precondition is
  used by no step.
-/
import proofs.«171299_j62466004353543_1_alg».proof.Defs
import proofs.«171299_j62466004353543_1_alg».proof.Proof.Gen.Kernel
import proofs.«171299_j62466004353543_1_alg».proof.Proof.Gen.Kernel.Skeleton
import proofs.«171299_j62466004353543_1_alg».proof.Proof.Gen.Kernel.Launch
import proofs.«171299_j62466004353543_1_alg».proof.Proof.Gen.Kernel.Points
import proofs.«171299_j62466004353543_1_alg».proof.Proof.Gen.Kernel.Frame
import proofs.«171299_j62466004353543_1_alg».proof.Proof.Gen.KernelIdeal
import proofs.«171299_j62466004353543_1_alg».proof.Proof.Gen.KernelIdeal.Skeleton
import proofs.«171299_j62466004353543_1_alg».proof.Proof.Gen.KernelIdeal.Launch
import proofs.«171299_j62466004353543_1_alg».proof.Proof.Gen.KernelIdeal.Points
import proofs.«171299_j62466004353543_1_alg».proof.Proof.Gen.KernelIdeal.Frame
import proofs.«171299_j62466004353543_1_alg».proof.Proof.Gen.ReferenceIdeal
import proofs.«171299_j62466004353543_1_alg».proof.Proof.Gen.Pre_finite_inputs
import proofs.«171299_j62466004353543_1_alg».proof.Proof.SpikeStep
import Idealize.ShloMosaic.Adequacy
import Idealize.ShloMosaic.Init

noncomputable section

namespace Cert.Proof

open Idealize.ShloMosaic Idealize.ShloMosaic.TcCoe Idealize.SL.Sem

/-- The kernel as printed runs and keeps its arguments: the generated frame certificate. -/
theorem frame_kernel : Cert.frame_Kernel := fun m g _ => Cert.Kernel.Gen.frame m g

/-- The same for the kernel read over the extended reals. -/
theorem frame_kernelIdeal : Cert.frame_KernelIdeal := fun m g _ => Cert.KernelIdeal.Gen.frame m g

/-- The reference runs and keeps its arguments: its run, with what it says of the four results dropped. -/
theorem frame_reference : Cert.frame_ReferenceIdeal := fun m g _ =>
  (θ_run Cert.ReferenceIdeal.defs _ _).mono (fun _ h c => (h c).2.2.2.2)
    (Cert.ReferenceIdeal.RunP.run (F := Ideal) m g)

/-- From memories that agree on the arguments both programs end, and each of the reference's four result arrays is
    the kernel's: the reference's composed term is its last stage, and that stage is the kernel's function of the
    same three arrays (`SpikeStep.amplitude_eq`, `membrane_eq`, `refractory_eq`, `spikeTime_eq`). -/
theorem algebraic : Cert.algebraic_KernelIdeal_ReferenceIdeal := by
  intro m g m' g' _ hagree
  refine ⟨_, _, _, _, Cert.KernelIdeal.ValueP.run (F := Ideal) m g, ?_⟩
  refine (θ_run Cert.ReferenceIdeal.defs _ _).mono (fun _ h c => ?_)
    (Cert.ReferenceIdeal.RunP.run (F := Ideal) m' g')
  obtain ⟨hspike, hmem, hrefrac, htrain, hargs⟩ := h c
  obtain ⟨e0, e1, e2, _⟩ := hagree c
  refine ⟨hspike.trans ?_, hmem.trans ?_, hrefrac.trans ?_, htrain.trans ?_, hargs⟩
  · rw [e0, e1, e2]
    exact (Cert.ReferenceIdeal.ReadP.val_main_v12_eq _ _ _).trans (Cert.SpikeStep.amplitude_eq _ _ _)
  · rw [e0, e1, e2]
    exact (Cert.ReferenceIdeal.ReadP.val_main_v15_eq _ _ _).trans (Cert.SpikeStep.membrane_eq _ _ _)
  · rw [e0, e1, e2]
    exact (Cert.ReferenceIdeal.ReadP.val_main_v16_eq _ _ _).trans (Cert.SpikeStep.refractory_eq _ _ _)
  · rw [e0, e1, e2]
    exact (Cert.ReferenceIdeal.ReadP.val_main_v18_eq _ _ _).trans (Cert.SpikeStep.spikeTime_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
